-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x512 : Shape := ⟨3, ![64, 4096, 512]⟩
abbrev S_ : Shape := ⟨0, ![]⟩
abbrev S64x4096 : Shape := ⟨2, ![64, 4096]⟩

class Facts : Prop where
  bcast_S_S64x4096x512 : S_.BroadcastsInDim S64x4096x512 (![] : Fin 0 → Fin S64x4096x512.rank)
  reducesTo_S64x4096x512_S_d0_1_2 : S64x4096x512.ReducesTo [0, 1, 2] S_
  h_S_ : 0 < S_.numel
  reducesTo_S64x4096x512_S64x4096_d2 : S64x4096x512.ReducesTo [2] S64x4096
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S64x4096x512 .f32) : IVec S_ 1 :=
  let main_v0 : FVec F S64x4096x512 .f32 := Host.absf main_arg0
  let main_cst : FVec F S_ .f32 := constant S_ .f32 0x7F800000#32
  let main_v1 : FVec F S64x4096x512 .f32 := broadcastInDim S64x4096x512 ![] bcast_S_S64x4096x512 main_cst
  let main_v2 : IVec S64x4096x512 1 := cmpf .olt main_v0 main_v1
  let main_c : IVec S_ 1 := constantI S_ 1 1#1
  let main_v3 : IVec S_ 1 := (fun x v => Host.reduce IntOp.andi x v reducesTo_S64x4096x512_S_d0_1_2 h_S_) main_v2 main_c
  let main_v4 : FVec F S64x4096x512 .f32 := mulf main_arg0 main_arg0
  let main_cst_0 : FVec F S_ .f32 := constant S_ .f32 0x00000000#32
  let main_v5 : FVec F S64x4096 .f32 := (fun x v => Host.reduceAdd x v reducesTo_S64x4096x512_S64x4096_d2 h_S_) main_v4 main_cst_0
  let main_cst_1 : FVec F S_ .f32 := constant S_ .f32 0x00000000#32
  let main_v6 : FVec F S64x4096 .f32 := broadcastInDim S64x4096 ![] bcast_S_S64x4096 main_cst_1
  let main_v7 : IVec S64x4096 1 := cmpf .ogt main_v5 main_v6
  let main_c_2 : IVec S_ 1 := constantI S_ 1 1#1
  let main_v8 : IVec S_ 1 := (fun x v => Host.reduce IntOp.andi x v reducesTo_S64x4096_S_d0_1 h_S_) main_v7 main_c_2
  let main_v9 : IVec S_ 1 := andi main_v3 main_v8
  main_v9
-- ==== Kernel.lean ====
abbrev S64x4096x512 : Shape := ⟨3, ![64, 4096, 512]⟩
abbrev S262144x512 : Shape := ⟨2, ![262144, 512]⟩
abbrev S4096x512 : Shape := ⟨2, ![4096, 512]⟩
abbrev S4096 : Shape := ⟨1, ![4096]⟩
abbrev S4096x1 : Shape := ⟨2, ![4096, 1]⟩

abbrev nBuf : Space → Nat
  | .hbm => 4
  | .vmem => 4
  | .smem => 0
  | _ => 0

abbrev bufTy : (tb : Table) → Fin (tcTables nBuf tb) → BufTy
  | .hbm, ⟨0, _⟩ => ⟨S64x4096x512, .f32⟩
  | .hbm, ⟨1, _⟩ => ⟨S262144x512, .f32⟩
  | .hbm, ⟨2, _⟩ => ⟨S262144x512, .f32⟩
  | .hbm, ⟨3, _⟩ => ⟨S64x4096x512, .f32⟩
  | .local _ .vmem, ⟨0, _⟩ => ⟨S4096x512, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | _, _ => ⟨S64x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x4096x512_S262144x512 : S64x4096x512.ShapeCasts S262144x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S4096x512_S4096 : S4096x512.Reduces [1] S4096
  shapeCasts_S4096_S4096x1 : S4096.ShapeCasts S4096x1
  broadcasts_S4096x1_S4096x512 : S4096x1.Broadcasts S4096x512
  shapeCasts_S262144x512_S64x4096x512 : S262144x512.ShapeCasts S64x4096x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S262144x512.size a
  hwx0_1 : ∀ i : grid0.Coords, EltTy.bits .f32 = 32 ∨ (Rect.block (s := S262144x512) S4096x512.size (cc0_transform_1 i) (hinb0_1 i)).WholeWords (EltTy.packing .f32)

variable [Facts₀]

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S64x4096x512 : Shape := ⟨3, ![64, 4096, 512]⟩
abbrev S_ : Shape := ⟨0, ![]⟩
abbrev S64x4096 : Shape := ⟨2, ![64, 4096]⟩
abbrev S64x4096x1 : Shape := ⟨3, ![64, 4096, 1]⟩

abbrev nBuf : Space → Nat
  | .hbm => 8
  | .vmem => 0
  | .smem => 0
  | _ => 0

abbrev bufTy : (tb : Table) → Fin (tcTables nBuf tb) → BufTy
  | .hbm, ⟨0, _⟩ => ⟨S64x4096x512, .f32⟩
  | .hbm, ⟨1, _⟩ => ⟨S64x4096x512, .f32⟩
  | .hbm, ⟨2, _⟩ => ⟨S_, .f32⟩
  | .hbm, ⟨3, _⟩ => ⟨S64x4096, .f32⟩
  | .hbm, ⟨4, _⟩ => ⟨S64x4096x1, .f32⟩
  | .hbm, ⟨5, _⟩ => ⟨S64x4096x1, .f32⟩
  | .hbm, ⟨6, _⟩ => ⟨S64x4096x512, .f32⟩
  | .hbm, ⟨7, _⟩ => ⟨S64x4096x512, .f32⟩
  | _, _ => ⟨S64x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  reducesTo_S64x4096x512_S64x4096_d2 : S64x4096x512.ReducesTo [2] S64x4096
  h_S_ : 0 < S_.numel
  bcast_S64x4096_S64x4096x1_0_1 : S64x4096.BroadcastsInDim S64x4096x1 (![0, 1] : Fin 2 → Fin S64x4096x1.rank)
  bcast_S64x4096x1_S64x4096x512_0_1_2 : S64x4096x1.BroadcastsInDim S64x4096x512 (![0, 1, 2] : Fin 3 → Fin S64x4096x512.rank)

variable [Facts₀]

class Facts : Prop extends Facts₀ where

variable [Facts]
-- ==== Proof.Law.lean ====
/-
  The one algebraic law that joins the two programs. The kernel scales a row by the reciprocal square root
  of its sum of squares, `x · rsqrt s`; the reference divides the row by its Euclidean norm, `x / √s`.
  On the extended reals these agree for every `x` as soon as `0 < s`:
    * `s = ⊤`: `rsqrt ⊤ = 0` and `√⊤ = ⊤`, whose inverse is `0`, so both sides are `x · 0`;
    * `s` a positive real `r`: `√r ≠ 0`, so the quotient is the product with `(√r)⁻¹`, which is `rsqrt r`.
  At `s = 0` the law fails (`x · ⊤` against the quotient by zero), which is why the rows are asked to be nonzero.
-/
import Idealize.ShloMosaic.PureOps.Ideal

noncomputable section

namespace Cert.RowNormalize

open Idealize.ShloMosaic

theorem mul_rsqrt_eq_div_sqrt (x s : EReal) (hs : 0 < s) :
    x * Ideal.rsqrt s = Ideal.div x (Ideal.sqrt s) := by
  induction s using EReal.rec with
  | bot => exact absurd hs (by simp)
  | coe r =>
    have hr : 0 < r := by exact_mod_cast hs
    have hsq : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hsq, one_div]
  | top =>
    rw [Ideal.rsqrt_top, Ideal.sqrt_top]
    unfold Ideal.div
    rw [if_neg (by simp), EReal.inv_top]

end Cert.RowNormalize

end
-- ==== Proof.Rows.lean ====
/-
  The quantity both programs are built on: the sum of squares of one row `(b, t)` of the `[64, 4096, 512]`
  array, `rowSq x b t = ∑ k, x[b, t, k] · x[b, t, k]`, on the extended reals. The host's add-reduction
  over the last axis, read at `(b, t)`, is its initial value plus that sum over `k`; and a float comparison
  `a > c` that came out true says `c < a` in the linear order.
-/
import Idealize.ShloMosaic.Lib.ValueIdx
import Idealize.ShloMosaic.PureOps.Ideal.Laws

noncomputable section

namespace Cert.RowNormalize

open Idealize.ShloMosaic Idealize.ShloMosaic.ValueIdx
open scoped BigOperators

abbrev T3 : Shape := ⟨3, ![64, 4096, 512]⟩
abbrev T2 : Shape := ⟨2, ![64, 4096]⟩
abbrev T0 : Shape := ⟨0, ![]⟩

/-- The sum of squares of row `(b, t)`. -/
def rowSq (x : T3.Idx → EReal) (b : Fin 64) (t : Fin 4096) : EReal :=
  ∑ k : Fin 512, x (ix3 b t k) * x (ix3 b t k)

/-- The host's sum over the last axis at `(b, t)`: the initial value plus the sum over the row. -/
theorem host_row_sum (h' : T3.ReducesTo [2] T2) (hu : 0 < T0.numel) (y : FVec Ideal T3 .f32) (init : T0.Idx → EReal)
    (b : Fin 64) (t : Fin 4096) :
    Host.reduceAdd (F := Ideal) y init h' hu (ix2 b t) = init (Shape.Idx.first hu) + ∑ k : Fin 512, y (ix3 b t k) := by
  simp only [Host.reduceAdd, Ideal.hostReduceAdd_def]
  rw [Ideal.hostReduceAdd_single h' (by decide)]
  refine congrArg (_ + ·) (Finset.sum_congr rfl fun k _ => ?_)
  exact congrArg y (funext fun a => Fin.ext (by match a with | ⟨0, _⟩ => rfl | ⟨1, _⟩ => rfl | ⟨2, _⟩ => rfl))

/-- A comparison `x > y` that is true. -/
theorem lt_of_cmp_ogt {x y : EReal} (h : Ideal.cmp .ogt x y = 1#1) : y < x := by
  unfold Ideal.cmp at h
  by_contra hn
  simp [hn] at h

end Cert.RowNormalize

end
-- ==== Proof.PreDecode.lean ====
/-
  What the precondition says of a row. Its second conjunct is `all (sum (x · x, axis = -1) > 0)`: read back,
  every row's sum of squares is positive.
-/
import proofs.«119490_j59219009077998_2_alg».proof.Pre_finite_inputs
import proofs.«119490_j59219009077998_2_alg».proof.Proof.Rows
import Idealize.ShloMosaic.Lib.ReduceAll

noncomputable section

namespace Cert.RowNormalize

open Idealize.ShloMosaic Idealize.ShloMosaic.ValueIdx Cert.Pre_finite_inputs

variable [Cert.Pre_finite_inputs.Facts]

instance : Subsingleton Cert.Pre_finite_inputs.S_.Idx := ⟨fun a b => funext fun d => d.elim0⟩

theorem rowSq_pos_of_pre (x : FVec Ideal Cert.Pre_finite_inputs.S64x4096x512 .f32)
    (h : Cert.Pre_finite_inputs.fn (F := Ideal) x = fun _ => 1#1) (b : Fin 64) (t : Fin 4096) :
    0 < rowSq x b t := by
  have h0 := congrFun h ix0
  dsimp only [Cert.Pre_finite_inputs.fn] at h0
  obtain ⟨-, h8⟩ := IntOp.andi_eq_one.1 h0
  have hc := Host.reduce_andi_all _ _ _ _ _ h8 (ix2 b t)
  have hlt : (Ideal.ofBits .f32 0x00000000#32 : EReal)
      < Ideal.ofBits .f32 0x00000000#32 + ∑ k : Fin 512, x (ix3 b t k) * x (ix3 b t k) := by
    have h1 := lt_of_cmp_ogt hc
    rw [host_row_sum] at h1
    exact h1
  rw [Ideal.ofBits_zero_f32, zero_add] at hlt
  exact hlt

end Cert.RowNormalize

end
-- ==== Proof.RefValue.lean ====
/-
  The reference at an index: entry `(b, t, j)` of its result is `x[b, t, j] / √(rowSq x b t)` — the quotient of
  the entry by the Euclidean norm of its row, the norm being the square root of the row's sum of squares (the
  host sum starts from the constant zero, which adds nothing).
-/
import proofs.«119490_j59219009077998_2_alg».proof.Proof.Gen.ReferenceIdeal.Read
import proofs.«119490_j59219009077998_2_alg».proof.Proof.Rows

noncomputable section

namespace Cert.RowNormalize

open Idealize.ShloMosaic Idealize.ShloMosaic.ValueIdx
open Cert.ReferenceIdeal Cert.ReferenceIdeal.Gen Cert.ReferenceIdeal.Read

theorem reference_apply (x : (⟨S64x4096x512, .f32⟩ : BufTy).Contents (Elt Ideal)) (b : Fin 64) (t : Fin 4096) (j : Fin 512) :
    val_main_v2 (F := Ideal) x (ix3 b t j) = Ideal.div (x (ix3 b t j)) (Ideal.sqrt (rowSq x b t)) := by
  have e : ∀ k : Fin 512, idx_main_call0_v1 (idx_main_call0_v2 (idx_main_v1 (ix3 b t j))) k = ix3 b t k :=
    fun k => funext fun a => Fin.ext (by match a with | ⟨0, _⟩ => rfl | ⟨1, _⟩ => rfl | ⟨2, _⟩ => rfl)
  rw [val_main_v2_apply, val_main_v1_apply, val_main_v0_apply, val_main_call0_v2_apply, val_main_call0_v1_apply]
  simp only [e, val_main_call0_v0_apply, val_main_call0_cst_apply, Ideal.hostDivf_def, Ideal.hostUnary_sqrt_def,
    Ideal.mulf_def, Ideal.ofBits_def, Ideal.ofBits_zero_f32, zero_add]
  rfl

end Cert.RowNormalize

end
-- ==== Proof.KernelPayload.lean ====
/-
  What the kernel's body stores, entry by entry. The body loads a `[4096, 512]` block, squares it, sums each row
  over the 512 lanes, takes the reciprocal square root of the column of sums and scales the block's rows by it:
  entry `(p, q)` of the stored value is `x[p, q] · rsqrt (∑ k, x[p, k] · x[p, k])`.
  Two layout steps sit between the row sums and the scaling: the vector of sums becomes a one-lane column
  (`[a] → [a, 1]`), and the column is broadcast along the rows (`[a, 1] → [a, b]`); both are read at an index here.
-/
import proofs.«119490_j59219009077998_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.RowNormalize

open Idealize.ShloMosaic Idealize.ShloMosaic.ValueIdx
open scoped BigOperators

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector, read at an index. -/
theorem rsqrt_apply {s : Shape} {φ : FTy} (v : FVec Ideal s φ) (i : s.Idx) : rsqrt v i = Ideal.rsqrt (v i) := rfl

open Cert.KernelIdeal Cert.KernelIdeal.Gen in
/-- The stored value at `(p, q)`: the loaded entry times the reciprocal square root of its row's sum of squares. -/
theorem payload_apply (x0 : Vec Ideal S4096x512 .f32) (p : Fin 4096) (q : Fin 512) :
    k0_pay1 (F := Ideal) x0 (ix2 p q)
      = x0 (ix2 p q) * Ideal.rsqrt (∑ k : Fin 512, x0 (ix2 p k) * x0 (ix2 p k)) := by
  unfold k0_pay1
  rw [shapeCast_self, mulf_apply, broadcastTo_a1_ab_apply, rsqrt_apply, shapeCast_a_a1_apply]
  refine congrArg (fun s => x0 (ix2 p q) * Ideal.rsqrt s) ?_
  refine (Ideal.multiReduction_add_single (mulf x0 x0) 0x00000000#32 reduces_S4096x512_S4096 _ _ (ix1 p)).trans ?_
  refine Finset.sum_congr rfl fun k _ => ?_
  have e : reduces_S4096x512_S4096.lift (ix1 p) k = ix2 p k :=
    funext fun a => Fin.ext (by match a with | ⟨0, _⟩ => rfl | ⟨1, _⟩ => rfl)
  rw [mulf_apply, e]
  rfl

end Cert.RowNormalize

end
-- ==== Proof.KernelValue.lean ====
/-
  What the kernel leaves in its result, read off its run. The region runs over the `[262144, 512]` view of the
  argument in 64 blocks of 4096 rows; block `t` of the output is written once, at point `t`, with the body's
  stored value of block `t` of the input. Since a row lies inside one block, every entry of the output array is
  its input entry times the reciprocal square root of ITS ROW's sum of squares: one function (`scaled`) of the
  whole input array, of which each written block is the restriction. The blocks tile the array, so after the run
  the array is `scaled` of the input. The lines around the region only re-lay the `[64, 4096, 512]` argument as
  `[262144, 512]` and back, row `(b, t)` being row `4096·b + t`.
-/
import proofs.«119490_j59219009077998_2_alg».proof.Proof.Gen.KernelIdeal.Frame
import proofs.«119490_j59219009077998_2_alg».proof.Proof.KernelPayload
import proofs.«119490_j59219009077998_2_alg».proof.Proof.Rows
import Idealize.ShloMosaic.Lib.Pipeline.Value
import Idealize.ShloMosaic.Lib.StableHlo.Run

set_option maxRecDepth 16384

noncomputable section

namespace Cert.RowNormalize

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg)

theorem offs_zero : (![0, 0] : Fin 2 → Nat) = fun _ => 0 := funext fun a => by fin_cases a <;> rfl

/-- Every row of a `[262144, 512]` array scaled by the reciprocal square root of its sum of squares. -/
def scaled (X : S262144x512.Idx → EReal) : S262144x512.Idx → EReal :=
  fun i => X i * Ideal.rsqrt (∑ k : Fin 512, X (ix2 (i 0) k) * X (ix2 (i 0) k))

/-- Row `p` of block `r` (of 64 blocks of 4096 rows) as a row of the whole array. -/
def rowOf (r : ℕ) (hr : r < 64) (p : Fin 4096) : Fin 262144 := ⟨r * 4096 + p.val, by have := p.isLt; omega⟩

/-- A block of 4096 whole rows, starting at row `4096·r`: what the body stores of it is the block of `scaled`. -/
theorem payload_block (X : S262144x512.Idx → EReal) (x0 : Vec Ideal S4096x512 .f32) (r : ℕ) (hr : r < 64)
    (hx : ∀ (p : Fin 4096) (k : Fin 512), x0 (ix2 p k) = X (ix2 (rowOf r hr p) k))
    (y : S4096x512.Idx) (i : S262144x512.Idx) (hi0 : (i 0).val = r * 4096 + (y 0).val) (hi1 : (i 1).val = (y 1).val) :
    k0_pay1 (F := Ideal) x0 y = scaled X i := by
  obtain ⟨p, q, rfl⟩ : ∃ (p : Fin 4096) (q : Fin 512), y = ix2 p q := ⟨y 0, y 1, eq_ix2 y⟩
  have hi : i = ix2 (rowOf r hr p) q :=
    funext fun a => Fin.ext (by match a with | ⟨0, _⟩ => exact hi0 | ⟨1, _⟩ => exact hi1)
  rw [payload_apply, hi]
  unfold scaled
  simp only [hx]

/-- The printed index maps over the 64 points: both windows are at block `t` of the rows, block 0 of the lanes. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of `scaled` of the input array as the region finds it. -/
theorem flushed_eq (c : Dev nD) (t : Fin cfg0.N) :
    (dats m 0 c).flushed 1 t = ((cfg0.win 1).blk t).view.read (Elt Ideal) (scaled (V m c main_v0)) := by
  show (cfg0.win 1).cut (grid0.coords t) ((dats m 0 c).after 1 t) = _
  rw [after0_1]
  unfold out0_1
  rw [View.canon_unit_zero offs_zero]
  simp only [View.ld_unit_zero (S := S4096x512) offs_zero]
  obtain ⟨e0, e1, e2, e3⟩ := idx_facts t
  have ht : t.val < 64 := lt_of_lt_of_eq t.isLt N_0
  funext j
  show k0_pay1 (F := Ideal) (iblk m c 0 t) j = scaled (V m c main_v0) (((cfg0.win 1).blk t).view.emb j)
  refine payload_block (V m c main_v0) (iblk m c 0 t) t.val ht ?_ j (((cfg0.win 1).blk t).view.emb j) ?_ ?_
  · intro p k
    unfold iblk
    rw [View.read_apply]
    show V m c main_v0 _ = V m c main_v0 _
    congr 1
    funext a
    apply Fin.ext
    match a with
    | ⟨0, _⟩ => show win0_0.index t (0 : Fin 2) * 4096 + 1 * p.val = t.val * 4096 + p.val; rw [e0]; omega
    | ⟨1, _⟩ => show win0_0.index t (1 : Fin 2) * 512 + 1 * k.val = k.val; rw [e1]; omega
  · show win0_1.index t (0 : Fin 2) * 4096 + 1 * (j 0).val = t.val * 4096 + (j 0).val; rw [e2]; omega
  · show win0_1.index t (1 : Fin 2) * 512 + 1 * (j 1).val = (j 1).val; rw [e3]; omega

/-- An index of the output array is in point `t`'s block iff each coordinate is in the block's range on its axis. -/
theorem mem_blk (t : Fin cfg0.N) (i : S262144x512.Idx) :
    i ∈ ((cfg0.win 1).blk t).view.set ↔ ∀ a : Fin 2, win0_1.index t a * S4096x512.size a ≤ (i a).val
      ∧ (i a).val < win0_1.index t a * S4096x512.size a + S4096x512.size a := by
  show i ∈ ((View.whole main_v1).slice (win0_1.rect t)).set ↔ _
  rw [View.set_slice_whole, Rect.mem_set_unit]
  exact Iff.rfl

/-- Row `i₀` lies in the block of point `i₀ / 4096`: the 64 blocks tile the array. -/
theorem covered (i : S262144x512.Idx) :
    ∃ t : Fin cfg0.N, (cfg0.win 1).flush t = true ∧ i ∈ ((cfg0.win 1).blk t).view.set := by
  have hi0 : (i 0).val < 262144 := (i 0).isLt
  have hi1 : (i 1).val < 512 := (i 1).isLt
  have hN : cfg0.N = 64 := N_0
  let t : Fin cfg0.N := ⟨(i 0).val / 4096, by rw [hN]; omega⟩
  obtain ⟨e0, e1, e2, e3⟩ := idx_facts t
  have htv : t.val = (i 0).val / 4096 := rfl
  refine ⟨t, flush0_1 t, ?_⟩
  rw [mem_blk]
  intro a
  match a with
  | ⟨0, _⟩ =>
    show win0_1.index t (0 : Fin 2) * 4096 ≤ (i 0).val ∧ (i 0).val < win0_1.index t (0 : Fin 2) * 4096 + 4096
    rw [e2, htv]; omega
  | ⟨1, _⟩ =>
    show win0_1.index t (1 : Fin 2) * 512 ≤ (i 1).val ∧ (i 1).val < win0_1.index t (1 : Fin 2) * 512 + 512
    rw [e3]; omega

/-- The output array after the run: every row of the input array, as the region finds it, scaled. -/
theorem final_arr (c : Dev nD) : (dats m 0 c).arrAt 1 cfg0.N = scaled (V m c main_v0) :=
  (dats m 0 c).arrAt_eq_of_cover 1 (scaled (V m c main_v0)) (fun t _ => flushed_eq m c t) covered

/-! ## The lines around the region -/

/-- The region finds, as its input array, the argument re-laid as `[262144, 512]`. -/
theorem entry_arr (c : Dev nD) :
    (V m c main_v0 : S262144x512.Idx → EReal)
      = shapeCast S262144x512 (m ((c.tc : Thread nD τ).loc main_arg0)) shapeCasts_S64x4096x512_S262144x512 := by
  show StableHlo.after hostOps0 (fun b => m (c, b)) (Proc.devRef .tc main_v0) = _
  after_results
  rfl

/-- The kernel's result as one function of its argument: re-lay, scale every row, re-lay back. -/
def result (x : S64x4096x512.Idx → EReal) : S64x4096x512.Idx → EReal :=
  shapeCast S64x4096x512 (scaled (shapeCast S262144x512 x shapeCasts_S64x4096x512_S262144x512))
    shapeCasts_S262144x512_S64x4096x512

/-- The line after the region re-lays the output array: @main's result is `result` of the argument. -/
theorem tail_result (c : Dev nD) :
    Pipeline.afterTail₀ cfgs (dats m) 0 (V0 m) [hostOps1] c main_v2 = result (m ((c.tc : Thread nD τ).loc main_arg0)) := by
  have e : Pipeline.withArrays (cfgs 0).spec c (V0 m c) (fun w => (dats m 0 c).arrAt w (cfgs 0).N) (Proc.tc.devRef main_v1)
      = scaled (shapeCast S262144x512 (m ((c.tc : Thread nD τ).loc main_arg0)) shapeCasts_S64x4096x512_S262144x512) :=
    ((Pipeline.withArrays_arr spec0 launch0.win.arr_inj c _ _ 1).trans (final_arr m c)).trans
      (congrArg scaled (entry_arr m c))
  unfold Pipeline.afterTail₀
  show StableHlo.after hostOps1 _ (Proc.devRef .tc main_v2) = _
  after_results
  unfold result
  exact congrArg (fun X => shapeCast S64x4096x512 X shapeCasts_S262144x512_S64x4096x512) e

/-- The kernel's run, read: its result array ends at `result` of the argument, the argument unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (tail_result m c),
       ((h c).2 main_arg0 (Pipeline.mem_restRefs_of main_arg0 (by decide) (by decide))).trans (W_main_arg0 m (dats m) c)⟩)
    (run_main m ρ)

/-! ## The result at an index -/

/-- Row `(b, t)` of the `[64, 4096, 512]` array is row `4096·b + t` of its `[262144, 512]` re-laying. -/
def flatRow (b : Fin 64) (t : Fin 4096) : Fin 262144 := ⟨b.val * 4096 + t.val, by have := b.isLt; have := t.isLt; omega⟩

theorem relay_apply (x : S64x4096x512.Idx → EReal) (b : Fin 64) (t : Fin 4096) (k : Fin 512) :
    shapeCast S262144x512 x shapeCasts_S64x4096x512_S262144x512 (ix2 (flatRow b t) k) = x (ix3 b t k) :=
  shapeCast_apply x _ _ _ (by
    rw [Shape.rowMajor_val_two, Shape.rowMajor_val_three]
    rfl)

theorem relay_back_apply (Y : S262144x512.Idx → EReal) (b : Fin 64) (t : Fin 4096) (j : Fin 512) :
    shapeCast S64x4096x512 Y shapeCasts_S262144x512_S64x4096x512 (ix3 b t j) = Y (ix2 (flatRow b t) j) :=
  shapeCast_apply Y _ _ _ (by
    rw [Shape.rowMajor_val_two, Shape.rowMajor_val_three]
    rfl)

/-- Entry `(b, t, j)` of the kernel's result: the argument's entry times the reciprocal square root of its row's
    sum of squares. -/
theorem result_apply (x : S64x4096x512.Idx → EReal) (b : Fin 64) (t : Fin 4096) (j : Fin 512) :
    result x (ix3 b t j) = x (ix3 b t j) * Ideal.rsqrt (rowSq x b t) := by
  unfold result
  rw [relay_back_apply]
  unfold scaled rowSq
  simp only [relay_apply]

end Cert.RowNormalize

end
-- ==== Proof.lean ====
/-
  The certificate: a row-normalizing kernel against `x / ‖x‖₂` over the last axis of a `[64, 4096, 512]` array.

  The kernel scales each row by the reciprocal square root of its sum of squares, `x · rsqrt (∑ x²)`; the
  reference divides each row by its Euclidean norm, `x / √(∑ x²)`. On the extended reals the two agree wherever
  the row's sum of squares `s` is positive (`Proof/Law.lean`): at a positive real both are `x · (√s)⁻¹`, at `s = ⊤`
  both are `x · 0`. At a row of zeros they differ — the kernel gives `0 · ⊤ = 0`, the reference the quotient `0 / 0`,
  which is not a number — so the precondition asks, beside finiteness, that every row's sum of squares be positive:
  exactly the inputs on which the reference's quotient is defined. Only that conjunct is used (`Proof/PreDecode.lean`);
  finiteness is never opened, the law holding at infinite sums too.

  The kernel's result as a function of its argument is read off its run (`Proof/KernelValue.lean` over
  `Proof/KernelPayload.lean`), the reference's off its own (`Proof/RefValue.lean`); both are written over the one
  quantity `rowSq x b t = ∑ k, x[b,t,k]²` (`Proof/Rows.lean`) and meet entry by entry through the law.
  The kernel's two frames are the generated ones, the reference's is its run with the result dropped; the kernel's
  idealization rewrote nothing, so nothing is owed for it.
-/
import proofs.«119490_j59219009077998_2_alg».proof.Defs
import proofs.«119490_j59219009077998_2_alg».proof.Proof.Gen.Kernel
import proofs.«119490_j59219009077998_2_alg».proof.Proof.Gen.Kernel.Skeleton
import proofs.«119490_j59219009077998_2_alg».proof.Proof.Gen.Kernel.Launch
import proofs.«119490_j59219009077998_2_alg».proof.Proof.Gen.Kernel.Points
import proofs.«119490_j59219009077998_2_alg».proof.Proof.Gen.Kernel.Frame
import proofs.«119490_j59219009077998_2_alg».proof.Proof.Gen.KernelIdeal
import proofs.«119490_j59219009077998_2_alg».proof.Proof.Gen.KernelIdeal.Skeleton
import proofs.«119490_j59219009077998_2_alg».proof.Proof.Gen.KernelIdeal.Launch
import proofs.«119490_j59219009077998_2_alg».proof.Proof.Gen.KernelIdeal.Points
import proofs.«119490_j59219009077998_2_alg».proof.Proof.Gen.KernelIdeal.Frame
import proofs.«119490_j59219009077998_2_alg».proof.Proof.Gen.ReferenceIdeal
import proofs.«119490_j59219009077998_2_alg».proof.Proof.Gen.ReferenceIdeal.Run
import proofs.«119490_j59219009077998_2_alg».proof.Proof.Gen.ReferenceIdeal.Read
import proofs.«119490_j59219009077998_2_alg».proof.Proof.Gen.Pre_finite_inputs
import proofs.«119490_j59219009077998_2_alg».proof.Proof.Law
import proofs.«119490_j59219009077998_2_alg».proof.Proof.Rows
import proofs.«119490_j59219009077998_2_alg».proof.Proof.PreDecode
import proofs.«119490_j59219009077998_2_alg».proof.Proof.RefValue
import proofs.«119490_j59219009077998_2_alg».proof.Proof.KernelValue
import Idealize.ShloMosaic.Adequacy
import Idealize.ShloMosaic.Init

noncomputable section

namespace Cert.Proof

open Idealize.ShloMosaic Idealize.ShloMosaic.ValueIdx Idealize.SL.Sem Cert.RowNormalize

/-- The word-level kernel runs and keeps its argument. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Where every row's sum of squares is positive, the reference's quotient by the norm is the kernel's product with the
    reciprocal square root, entry by entry. -/
theorem reference_eq_result (x : (⟨3, ![64, 4096, 512]⟩ : Shape).Idx → EReal)
    (hpos : ∀ (b : Fin 64) (t : Fin 4096), 0 < rowSq x b t) :
    Cert.ReferenceIdeal.Read.val_main_v2 (F := Ideal) x = Cert.RowNormalize.result x := by
  funext i
  obtain ⟨b, t, j, rfl⟩ : ∃ (b : Fin 64) (t : Fin 4096) (j : Fin 512), i = ix3 b t j := ⟨i 0, i 1, i 2, eq_ix3 i⟩
  rw [reference_apply, result_apply]
  exact (mul_rsqrt_eq_div_sqrt _ _ (hpos _ _)).symm

/-- Both idealized programs end at `result` of the common argument. -/
theorem algebraic : Cert.algebraic_KernelIdeal_ReferenceIdeal := by
  intro m ρ m' ρ' hpre hagree
  refine ⟨fun c => Cert.RowNormalize.result (m ((c.tc : Thread Cert.KernelIdeal.nD Cert.KernelIdeal.τ).loc Cert.KernelIdeal.main_arg0)),
    Cert.RowNormalize.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, hagree c]
  exact reference_eq_result _ (rowSq_pos_of_pre _ (hpre c))

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
